-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S262144x128 .f32) (main_arg1 : FVec F S256x128 .f32) (main_arg2 : FVec F S256 .f32) (main_arg3 : FVec F S128x256 .f32) (main_arg4 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S2048x128 : Shape := ⟨2, ![2048, 128]⟩
abbrev S2048x256 : Shape := ⟨2, ![2048, 256]⟩
abbrev S1x256 : Shape := ⟨2, ![1, 256]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S262144x128, .f32⟩
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S256, .f32⟩
  | .local _ .vmem, ⟨4, _⟩ => ⟨S128x256, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  inb_S256x128_S256x128_0_0 : ∀ a, (![0, 0] : Fin 2 → Nat) a + S256x128.size a ≤ S256x128.size a
  h_S256x128 : 0 < S256x128.numel
  inb_S256_S256_0 : ∀ a, (![0] : Fin 1 → Nat) a + S256.size a ≤ S256.size a
  h_S256 : 0 < S256.numel
  inb_S128x256_S128x256_0_0 : ∀ a, (![0, 0] : Fin 2 → Nat) a + S128x256.size a ≤ S128x256.size a
  h_S128x256 : 0 < S128x256.numel
  inb_S128_S128_0 : ∀ a, (![0] : Fin 1 → Nat) a + S128.size a ≤ S128.size a
  h_S128 : 0 < S128.numel
  bitsLt_bf16_f32 : FTy.bits .bf16 < FTy.bits .f32
  shapeCasts_S256_S1x256 : S256.ShapeCasts S1x256
  broadcasts_S1x256_S2048x256 : S1x256.Broadcasts S2048x256
  shapeCasts_S128_S1x128 : S128.ShapeCasts S1x128
  broadcasts_S1x128_S2048x128 : S1x128.Broadcasts S2048x128
  dot_S2048x128_S256x128_S2048x256_1_1_0_0_n_n_wf : DotDims.WF S2048x128 S256x128 S2048x256 [1] [1] [0] [0] [] []
  dot_S2048x256_S128x256_S2048x128_1_1_0_0_n_n_wf : DotDims.WF S2048x256 S128x256 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S262144x128.size a
  hwx0_5 : ∀ i : grid0.Coords, EltTy.bits .f32 = 32 ∨ (Rect.block (s := S262144x128) S2048x128.size (cc0_transform_5 i) (hinb0_5 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S128x256_S2048x128_1_1_0_0_n_n : DotDims S2048x256 S128x256 S2048x128 where
  lhsContracting := [1]
  rhsContracting := [1]
  lhsNonContracting := [0]
  rhsNonContracting := [0]
  lhsBatch := []
  rhsBatch := []
  wf := dot_S2048x256_S128x256_S2048x128_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S256x128 : Shape := ⟨2, ![256, 128]⟩
abbrev S256 : Shape := ⟨1, ![256]⟩
abbrev S128x256 : Shape := ⟨2, ![128, 256]⟩
abbrev S128 : Shape := ⟨1, ![128]⟩
abbrev S262144x256 : Shape := ⟨2, ![262144, 256]⟩
abbrev S1x256 : Shape := ⟨2, ![1, 256]⟩
abbrev S_ : Shape := ⟨0, ![]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x128, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S262144x256, .f32⟩
  | .hbm, ⟨7, _⟩ => ⟨S1x256, .f32⟩
  | .hbm, ⟨8, _⟩ => ⟨S262144x256, .f32⟩
  | .hbm, ⟨9, _⟩ => ⟨S262144x256, .f32⟩
  | .hbm, ⟨10, _⟩ => ⟨S_, .f32⟩
  | .hbm, ⟨11, _⟩ => ⟨S262144x256, .f32⟩
  | .hbm, ⟨12, _⟩ => ⟨S262144x256, .f32⟩
  | .hbm, ⟨13, _⟩ => ⟨S256x128, .f32⟩
  | .hbm, ⟨14, _⟩ => ⟨S262144x128, .f32⟩
  | .hbm, ⟨15, _⟩ => ⟨S1x128, .f32⟩
  | .hbm, ⟨16, _⟩ => ⟨S262144x128, .f32⟩
  | .hbm, ⟨17, _⟩ => ⟨S262144x128, .f32⟩
  | .hbm, ⟨18, _⟩ => ⟨S_, .f32⟩
  | .hbm, ⟨19, _⟩ => ⟨S262144x128, .f32⟩
  | .hbm, ⟨20, _⟩ => ⟨S262144x128, .f32⟩
  | .hbm, ⟨21, _⟩ => ⟨S_, .f32⟩
  | .hbm, ⟨22, _⟩ => ⟨S262144x128, .f32⟩
  | .hbm, ⟨23, _⟩ => ⟨S262144x128, .f32⟩
  | .hbm, ⟨24, _⟩ => ⟨S262144x128, .f32⟩
  | .hbm, ⟨25, _⟩ => ⟨S128x256, .f32⟩
  | .hbm, ⟨26, _⟩ => ⟨S262144x256, .f32⟩
  | .hbm, ⟨27, _⟩ => ⟨S1x256, .f32⟩
  | .hbm, ⟨28, _⟩ => ⟨S262144x256, .f32⟩
  | .hbm, ⟨29, _⟩ => ⟨S262144x256, .f32⟩
  | .hbm, ⟨30, _⟩ => ⟨S_, .f32⟩
  | .hbm, ⟨31, _⟩ => ⟨S262144x256, .f32⟩
  | .hbm, ⟨32, _⟩ => ⟨S262144x256, .f32⟩
  | .hbm, ⟨33, _⟩ => ⟨S256x128, .f32⟩
  | .hbm, ⟨34, _⟩ => ⟨S262144x128, .f32⟩
  | .hbm, ⟨35, _⟩ => ⟨S1x128, .f32⟩
  | .hbm, ⟨36, _⟩ => ⟨S262144x128, .f32⟩
  | .hbm, ⟨37, _⟩ => ⟨S262144x128, .f32⟩
  | .hbm, ⟨38, _⟩ => ⟨S_, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S_, .f32⟩
  | .hbm, ⟨43, _⟩ => ⟨S262144x128, .f32⟩
  | .hbm, ⟨44, _⟩ => ⟨S262144x128, .f32⟩
  | .hbm, ⟨45, _⟩ => ⟨S262144x128, .f32⟩
  | .hbm, ⟨46, _⟩ => ⟨S128x256, .f32⟩
  | .hbm, ⟨47, _⟩ => ⟨S262144x256, .f32⟩
  | .hbm, ⟨48, _⟩ => ⟨S1x256, .f32⟩
  | .hbm, ⟨49, _⟩ => ⟨S262144x256, .f32⟩
  | .hbm, ⟨50, _⟩ => ⟨S262144x256, .f32⟩
  | .hbm, ⟨51, _⟩ => ⟨S_, .f32⟩
  | .hbm, ⟨52, _⟩ => ⟨S262144x256, .f32⟩
  | .hbm, ⟨53, _⟩ => ⟨S262144x256, .f32⟩
  | .hbm, ⟨54, _⟩ => ⟨S256x128, .f32⟩
  | .hbm, ⟨55, _⟩ => ⟨S262144x128, .f32⟩
  | .hbm, ⟨56, _⟩ => ⟨S1x128, .f32⟩
  | .hbm, ⟨57, _⟩ => ⟨S262144x128, .f32⟩
  | .hbm, ⟨58, _⟩ => ⟨S262144x128, .f32⟩
  | .hbm, ⟨59, _⟩ => ⟨S262144x128, .f32⟩
  | .hbm, ⟨60, _⟩ => ⟨S262144x128, .f32⟩
  | .hbm, ⟨61, _⟩ => ⟨S_, .f32⟩
  | .hbm, ⟨62, _⟩ => ⟨S262144x128, .f32⟩
  | .hbm, ⟨63, _⟩ => ⟨S262144x128, .f32⟩
  | .hbm, ⟨64, _⟩ => ⟨S262144x128, .f32⟩
  | .hbm, ⟨65, _⟩ => ⟨S128x256, .f32⟩
  | .hbm, ⟨66, _⟩ => ⟨S262144x256, .f32⟩
  | .hbm, ⟨67, _⟩ => ⟨S1x256, .f32⟩
  | .hbm, ⟨68, _⟩ => ⟨S262144x256, .f32⟩
  | .hbm, ⟨69, _⟩ => ⟨S262144x256, .f32⟩
  | .hbm, ⟨70, _⟩ => ⟨S_, .f32⟩
  | .hbm, ⟨71, _⟩ => ⟨S262144x256, .f32⟩
  | .hbm, ⟨72, _⟩ => ⟨S262144x256, .f32⟩
  | .hbm, ⟨73, _⟩ => ⟨S256x128, .f32⟩
  | .hbm, ⟨74, _⟩ => ⟨S262144x128, .f32⟩
  | .hbm, ⟨75, _⟩ => ⟨S1x128, .f32⟩
  | .hbm, ⟨76, _⟩ => ⟨S262144x128, .f32⟩
  | .hbm, ⟨77, _⟩ => ⟨S262144x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S262144x128, .f32⟩
  | .hbm, ⟨82, _⟩ => ⟨S_, .f32⟩
  | .hbm, ⟨83, _⟩ => ⟨S262144x128, .f32⟩
  | .hbm, ⟨84, _⟩ => ⟨S262144x128, .f32⟩
  | .hbm, ⟨85, _⟩ => ⟨S262144x128, .f32⟩
  | .hbm, ⟨86, _⟩ => ⟨S262144x128, .f32⟩
  | .hbm, ⟨87, _⟩ => ⟨S262144x128, .f32⟩
  | .hbm, ⟨88, _⟩ => ⟨S262144x128, .f32⟩
  | .hbm, ⟨89, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_cst_9 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]

class Facts₀ : Prop where
  transposes_S256x128_S128x256_1_0 : S256x128.Transposes [1, 0] S128x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  transposes_S128x256_S256x128_1_0 : S128x256.Transposes [1, 0] S256x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S262144x128_S128x256_S262144x256_1_0_0_1_n_n_wf : DotDims.WF S262144x128 S128x256 S262144x256 [1] [0] [0] [1] [] []
  dot_S262144x256_S256x128_S262144x128_1_0_0_1_n_n_wf : DotDims.WF S262144x256 S256x128 S262144x128 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf
def dot_S262144x256_S256x128_S262144x128_1_0_0_1_n_n : DotDims S262144x256 S256x128 S262144x128 where
  lhsContracting := [1]
  rhsContracting := [0]
  lhsNonContracting := [0]
  rhsNonContracting := [1]
  lhsBatch := []
  rhsBatch := []
  wf := dot_S262144x256_S256x128_S262144x128_1_0_0_1_n_n_wf

class Facts : Prop extends Facts₀ where

variable [Facts]
-- ==== Proof.RowSpec.lean ====
/-
  One explicit Runge–Kutta step (the 3/8 rule, step size one) of the vector field
      f(y) = W2 · relu (W1 · y + b1) + b2
  written ROW BY ROW over the extended reals.

  A row of the batch is a function `Fin 128 → EReal`; the weights are read straight off their arrays, so
  `W1 (ix2 h k)` is row `h`, column `k` of the first layer's 256 × 128 matrix and `W2 (ix2 j h)` row `j`, column
  `h` of the second layer's 128 × 256 one. Both layers contract the LAST axis of the weight matrix, that is they
  multiply by the transposed matrix.

  The scalars are kept as the float words they are written with (one, a third rounded to a float, three, an
  eighth, zero): the two programs compared against this specification use the same words, so none of them is
  ever evaluated, except that the word for one is the unit of multiplication.
-/
import Idealize.ShloMosaic.PureOps.Ideal
import Idealize.ShloMosaic.PureOps.IdealRules
import Idealize.ShloMosaic.Lib.ValueIdx

noncomputable section

open scoped BigOperators

namespace Cert.Rk4

open Idealize.ShloMosaic Idealize.ShloMosaic.ValueIdx

/-- The float word for `1.0`. -/
abbrev oneW : EReal := Ideal.ofBits .f32 0x3F800000#32
/-- The float word nearest to one third. -/
abbrev thirdW : EReal := Ideal.ofBits .f32 0x3EAAAAAB#32
/-- The float word for `3.0`. -/
abbrev threeW : EReal := Ideal.ofBits .f32 0x40400000#32
/-- The float word for `0.125`. -/
abbrev eighthW : EReal := Ideal.ofBits .f32 0x3E000000#32
/-- The float word for `0.0`, the floor of the rectifier. -/
abbrev zeroW : EReal := Ideal.ofBits .f32 0x00000000#32

/-- The word for `1.0` denotes the extended real one. -/
theorem oneW_eq : oneW = 1 := IdealRules.sign_bit.ideal_onePat .f32

/-- Hidden unit `h` of a row `y`: the rectified affine form `relu (⟨y, W1 h⟩ + b1 h)`. -/
def hidden (W1 : (⟨2, ![256, 128]⟩ : Shape).Idx → EReal) (b1 : (⟨1, ![256]⟩ : Shape).Idx → EReal)
    (y : Fin 128 → EReal) (h : Fin 256) : EReal :=
  max ((∑ k : Fin 128, y k * W1 (ix2 h k)) + b1 (ix1 h)) zeroW

/-- The vector field on one row: output `j` is `⟨hidden y, W2 j⟩ + b2 j`. -/
def field (W1 : (⟨2, ![256, 128]⟩ : Shape).Idx → EReal) (b1 : (⟨1, ![256]⟩ : Shape).Idx → EReal)
    (W2 : (⟨2, ![128, 256]⟩ : Shape).Idx → EReal) (b2 : (⟨1, ![128]⟩ : Shape).Idx → EReal)
    (y : Fin 128 → EReal) (j : Fin 128) : EReal :=
  (∑ h : Fin 256, hidden W1 b1 y h * W2 (ix2 j h)) + b2 (ix1 j)

/-- One step on one row, with the four slopes of the 3/8 rule:
    `k1 = f x`, `k2 = f (x + k1/3)`, `k3 = f (x + (k2 − k1/3))`, `k4 = f (x + (k1 − k2 + k3))`, and the
    result `x + (k1 + 3 (k2 + k3) + k4) / 8`; every product by the step size `1.0` is kept where the
    programs have it. -/
def stepRow (W1 : (⟨2, ![256, 128]⟩ : Shape).Idx → EReal) (b1 : (⟨1, ![256]⟩ : Shape).Idx → EReal)
    (W2 : (⟨2, ![128, 256]⟩ : Shape).Idx → EReal) (b2 : (⟨1, ![128]⟩ : Shape).Idx → EReal)
    (x : Fin 128 → EReal) (j : Fin 128) : EReal :=
  let f := field W1 b1 W2 b2
  let k1 := f x
  let k2 := f (fun a => x a + oneW * k1 a * thirdW)
  let k3 := f (fun a => x a + oneW * (k2 a - k1 a * thirdW))
  let k4 := f (fun a => x a + oneW * (k1 a - k2 a + k3 a))
  x j + eighthW * (k1 j + threeW * (k2 j + k3 j) + k4 j)

/-- The whole batch after one step: entry `(r, j)` is the step of row `r` at `j`. -/
def stepAll (x : (⟨2, ![262144, 128]⟩ : Shape).Idx → EReal)
    (W1 : (⟨2, ![256, 128]⟩ : Shape).Idx → EReal) (b1 : (⟨1, ![256]⟩ : Shape).Idx → EReal)
    (W2 : (⟨2, ![128, 256]⟩ : Shape).Idx → EReal) (b2 : (⟨1, ![128]⟩ : Shape).Idx → EReal) :
    (⟨2, ![262144, 128]⟩ : Shape).Idx → EReal :=
  fun i => stepRow W1 b1 W2 b2 (fun k => x (ix2 (i 0) k)) (i 1)

end Cert.Rk4

end
-- ==== Proof.KernelRow.lean ====
/-
  The kernel's arithmetic on one block of 2048 rows, read at an entry `(p, q)`, is the row-by-row step of
  `RowSpec` applied to row `p` of the block.

  Three facts carry it. A matrix product whose second operand is contracted along its LAST axis (both operands
  are read along their columns) is, at `(p, h)`, the sum over `k` of `lhs (p, k) · rhs (h, k)`. A bias vector
  cast to one row and repeated over the 2048 rows reads, at `(p, h)`, the bias at `h`. And at the exact
  values a change of float format is the identity, so the narrowing of the operands before each product
  disappears. With these the two-layer vector field of a block is the field of each of its rows, and the four
  slopes and the final combination are pointwise in the row.
-/
import proofs.«119810_j39135742001490_1_alg».proof.Proof.Gen.KernelIdeal.Skeleton
import proofs.«119810_j39135742001490_1_alg».proof.Proof.RowSpec
import Idealize.ShloMosaic.PureOps.Ideal.Laws
import Idealize.ShloMosaic.Lib.ValueIdx
import Idealize.ShloMosaic.Lib.ValueLayout

noncomputable section

open scoped BigOperators

namespace Cert.KernelIdeal.Row

open Cert.KernelIdeal Cert.KernelIdeal.Gen Idealize.ShloMosaic Idealize.ShloMosaic.ValueIdx

/-! ## The first product: 2048 × 128 by 256 × 128, both read along their columns -/

theorem lhsA_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem lhsA_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem rhsA_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem rhsA_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

/-- The first product into the zero accumulator, at `(p, h)`: the sum over the 128 columns of row `p` of the
    left operand times row `h` of the right one. -/
theorem productA_apply (lhs : FVec Ideal S2048x128 .bf16) (rhs : FVec Ideal S256x128 .bf16) (p : Fin 2048) (h : Fin 256) :
    matmul dot_S2048x128_S256x128_S2048x256_1_1_0_0_n_n none lhs rhs (constant S2048x256 .f32 0x00000000#32) (ix2 p h)
      = ∑ k : Fin 128, lhs (ix2 p k) * rhs (ix2 h k) := by
  simp only [matmul]
  rw [Ideal.matmul_constant_zero_apply, ← Equiv.sum_comp (contrEquiv1 dot_S2048x128_S256x128_S2048x256_1_1_0_0_n_n 128 rfl rfl).symm]
  refine Finset.sum_congr rfl fun k _ => ?_
  have hk := contrEquiv1_symm_val dot_S2048x128_S256x128_S2048x256_1_1_0_0_n_n 128 rfl rfl k
  have el : dot_S2048x128_S256x128_S2048x256_1_1_0_0_n_n.lhsIdx (ix2 p h) ((contrEquiv1 dot_S2048x128_S256x128_S2048x256_1_1_0_0_n_n 128 rfl rfl).symm k) = ix2 p k := funext fun a => Fin.ext (by
    match a with
    | ⟨0, _⟩ => exact lhsA_0 _ _
    | ⟨1, _⟩ => exact (lhsA_1 _ _).trans hk)
  have er : dot_S2048x128_S256x128_S2048x256_1_1_0_0_n_n.rhsIdx (ix2 p h) ((contrEquiv1 dot_S2048x128_S256x128_S2048x256_1_1_0_0_n_n 128 rfl rfl).symm k) = ix2 h k := funext fun a => Fin.ext (by
    match a with
    | ⟨0, _⟩ => exact rhsA_0 _ _
    | ⟨1, _⟩ => exact (rhsA_1 _ _).trans hk)
  rw [el, er]

/-! ## The second product: 2048 × 256 by 128 × 256, both read along their columns -/

theorem lhsB_0 (i : S2048x128.Idx) (q : dot_S2048x256_S128x256_S2048x128_1_1_0_0_n_n.contr.Idx) :
    (dot_S2048x256_S128x256_S2048x128_1_1_0_0_n_n.lhsIdx i q 0).val = (i 0).val := by
  unfold DotDims.lhsIdx
  rw [dif_neg (show ¬(0 : Fin S2048x256.rank) ∈ dot_S2048x256_S128x256_S2048x128_1_1_0_0_n_n.lhsBatch by decide), dif_pos (show (0 : Fin S2048x256.rank) ∈ dot_S2048x256_S128x256_S2048x128_1_1_0_0_n_n.lhsNonContracting by decide)]
  rfl
theorem lhsB_1 (i : S2048x128.Idx) (q : dot_S2048x256_S128x256_S2048x128_1_1_0_0_n_n.contr.Idx) :
    (dot_S2048x256_S128x256_S2048x128_1_1_0_0_n_n.lhsIdx i q 1).val = (q ⟨0, by decide⟩).val :=
  dot_S2048x256_S128x256_S2048x128_1_1_0_0_n_n.lhsIdx_val_of_single rfl i q
theorem rhsB_0 (i : S2048x128.Idx) (q : dot_S2048x256_S128x256_S2048x128_1_1_0_0_n_n.contr.Idx) :
    (dot_S2048x256_S128x256_S2048x128_1_1_0_0_n_n.rhsIdx i q 0).val = (i 1).val := by
  unfold DotDims.rhsIdx
  rw [dif_neg (show ¬(0 : Fin S128x256.rank) ∈ dot_S2048x256_S128x256_S2048x128_1_1_0_0_n_n.rhsBatch by decide), dif_pos (show (0 : Fin S128x256.rank) ∈ dot_S2048x256_S128x256_S2048x128_1_1_0_0_n_n.rhsNonContracting by decide)]
  rfl
theorem rhsB_1 (i : S2048x128.Idx) (q : dot_S2048x256_S128x256_S2048x128_1_1_0_0_n_n.contr.Idx) :
    (dot_S2048x256_S128x256_S2048x128_1_1_0_0_n_n.rhsIdx i q 1).val = (q ⟨0, by decide⟩).val :=
  dot_S2048x256_S128x256_S2048x128_1_1_0_0_n_n.rhsIdx_val_of_single rfl i q

/-- The second product into the zero accumulator, at `(p, j)`: the sum over the 256 columns of row `p` of the
    left operand times row `j` of the right one. -/
theorem productB_apply (lhs : FVec Ideal S2048x256 .bf16) (rhs : FVec Ideal S128x256 .bf16) (p : Fin 2048) (j : Fin 128) :
    matmul dot_S2048x256_S128x256_S2048x128_1_1_0_0_n_n none lhs rhs (constant S2048x128 .f32 0x00000000#32) (ix2 p j)
      = ∑ h : Fin 256, lhs (ix2 p h) * rhs (ix2 j h) := by
  simp only [matmul]
  rw [Ideal.matmul_constant_zero_apply, ← Equiv.sum_comp (contrEquiv1 dot_S2048x256_S128x256_S2048x128_1_1_0_0_n_n 256 rfl rfl).symm]
  refine Finset.sum_congr rfl fun k _ => ?_
  have hk := contrEquiv1_symm_val dot_S2048x256_S128x256_S2048x128_1_1_0_0_n_n 256 rfl rfl k
  have el : dot_S2048x256_S128x256_S2048x128_1_1_0_0_n_n.lhsIdx (ix2 p j) ((contrEquiv1 dot_S2048x256_S128x256_S2048x128_1_1_0_0_n_n 256 rfl rfl).symm k) = ix2 p k := funext fun a => Fin.ext (by
    match a with
    | ⟨0, _⟩ => exact lhsB_0 _ _
    | ⟨1, _⟩ => exact (lhsB_1 _ _).trans hk)
  have er : dot_S2048x256_S128x256_S2048x128_1_1_0_0_n_n.rhsIdx (ix2 p j) ((contrEquiv1 dot_S2048x256_S128x256_S2048x128_1_1_0_0_n_n 256 rfl rfl).symm k) = ix2 j k := funext fun a => Fin.ext (by
    match a with
    | ⟨0, _⟩ => exact rhsB_0 _ _
    | ⟨1, _⟩ => exact (rhsB_1 _ _).trans hk)
  rw [el, er]

/-! ## The biases, one row repeated over the block -/

/-- The first bias cast to one row and repeated: at `(p, h)` it is the bias at `h`. -/
theorem biasA_apply (b : Vec Ideal S256 .f32) (p : Fin 2048) (h : Fin 256) :
    broadcastTo S2048x256 (shapeCast S1x256 b shapeCasts_S256_S1x256) broadcasts_S1x256_S2048x256 (ix2 p h) = b (ix1 h) :=
  (broadcastTo_1b_ab_apply _ broadcasts_S1x256_S2048x256 p h).trans (shapeCast_a_1a_apply b shapeCasts_S256_S1x256 0 h)

/-- The second bias likewise: at `(p, j)` it is the bias at `j`. -/
theorem biasB_apply (b : Vec Ideal S128 .f32) (p : Fin 2048) (j : Fin 128) :
    broadcastTo S2048x128 (shapeCast S1x128 b shapeCasts_S128_S1x128) broadcasts_S1x128_S2048x128 (ix2 p j) = b (ix1 j) :=
  (broadcastTo_1b_ab_apply _ broadcasts_S1x128_S2048x128 p j).trans (shapeCast_a_1a_apply b shapeCasts_S128_S1x128 0 j)

/-! ## The vector field of a block is the field of each row -/

/-- The two-layer field of a block `y`, at `(p, q)`, is `RowSpec`'s field of row `p` at `q`. The body's first
    slope is this term at the loaded block, and every later slope is the same term at another block. -/
theorem field_apply (y : Vec Ideal S2048x128 .f32) (v1 : Vec Ideal S256x128 .f32) (v2 : Vec Ideal S256 .f32)
    (v3 : Vec Ideal S128x256 .f32) (v4 : Vec Ideal S128 .f32) (p : Fin 2048) (q : Fin 128) :
    k0_pay4 (F := Ideal) y v1 v2 v3 v4 (ix2 p q) = Cert.Rk4.field v1 v2 v3 v4 (fun k => y (ix2 p k)) q := by
  simp only [k0_pay4, k0_pay2, k0_pay3]
  rw [addf_apply, productB_apply, biasB_apply]
  unfold Cert.Rk4.field
  refine congrArg (· + v4 (ix1 q)) (Finset.sum_congr rfl fun h _ => ?_)
  rw [truncf_apply, truncf_apply, maximumf_apply, addf_apply, productA_apply, biasA_apply, broadcast_apply]
  unfold Cert.Rk4.hidden
  rfl

/-! ## The whole step on a block -/

/-- One step on a block, with the block's field in place of the row's: the four slopes are blocks, each the field of
    the block before it shifted by the earlier slopes, and the result combines them entry by entry. -/
def blockStep (v0 : Vec Ideal S2048x128 .f32) (v1 : Vec Ideal S256x128 .f32) (v2 : Vec Ideal S256 .f32)
    (v3 : Vec Ideal S128x256 .f32) (v4 : Vec Ideal S128 .f32) : Vec Ideal S2048x128 .f32 :=
  let f := fun y : Vec Ideal S2048x128 .f32 => k0_pay4 (F := Ideal) y v1 v2 v3 v4
  let k1 := f v0
  let k2 := f (fun i => v0 i + Cert.Rk4.oneW * k1 i * Cert.Rk4.thirdW)
  let k3 := f (fun i => v0 i + Cert.Rk4.oneW * (k2 i - k1 i * Cert.Rk4.thirdW))
  let k4 := f (fun i => v0 i + Cert.Rk4.oneW * (k1 i - k2 i + k3 i))
  fun i => v0 i + Cert.Rk4.eighthW * (k1 i + Cert.Rk4.threeW * (k2 i + k3 i) + k4 i)

/-- The value the body stores is that step of the loaded blocks: the body computes the first two slopes and the
    third slope's shift before its last stretch, and the last stretch the rest; at the exact values each of its
    vector operations is the extended reals' operation entry by entry. -/
theorem payload_eq (v0 : Vec Ideal S2048x128 .f32) (v1 : Vec Ideal S256x128 .f32) (v2 : Vec Ideal S256 .f32)
    (v3 : Vec Ideal S128x256 .f32) (v4 : Vec Ideal S128 .f32) :
    k0_pay1 (F := Ideal) v0 v2 v4 (k0_pay2 v1) (k0_pay3 v3) (k0_pay4 v0 v1 v2 v3 v4) (k0_pay5 v0 v1 v2 v3 v4) (k0_pay6 v0 v1 v2 v3 v4)
      = blockStep v0 v1 v2 v3 v4 := rfl

/-- The step of a block at `(p, q)` is the step of row `p` at `q`. -/
theorem blockStep_apply (v0 : Vec Ideal S2048x128 .f32) (v1 : Vec Ideal S256x128 .f32) (v2 : Vec Ideal S256 .f32)
    (v3 : Vec Ideal S128x256 .f32) (v4 : Vec Ideal S128 .f32) (p : Fin 2048) (q : Fin 128) :
    blockStep v0 v1 v2 v3 v4 (ix2 p q) = Cert.Rk4.stepRow v1 v2 v3 v4 (fun k => v0 (ix2 p k)) q := by
  simp only [blockStep, Cert.Rk4.stepRow, field_apply]

end Cert.KernelIdeal.Row

end
-- ==== Proof.KernelWhole.lean ====
/-
  From blocks to the whole array: after the kernel's run the output array holds `stepAll` of the argument arrays.

  The grid has 128 points; point `t` stages rows `2048 t … 2048 t + 2047` of the input (all 128 columns), the
  four weight arrays whole, and writes back the same rows of the output. So the block of the input at point `t`,
  at `(p, k)`, is the input at `(2048 t + p, k)`; the weight blocks are the weight arrays; and what the point
  writes back at `(p, q)` — the step of row `p` of the block — is the step of row `2048 t + p` of the input at
  `q`, which is `stepAll` read through the output's block. Row `r` of the output lies in the block of point
  `r / 2048`, so the 128 blocks cover the array and the array is `stepAll` everywhere.
-/
import proofs.«119810_j39135742001490_1_alg».proof.Proof.Gen.KernelIdeal.Value
import proofs.«119810_j39135742001490_1_alg».proof.Proof.KernelRow

noncomputable section

namespace Cert.KernelIdeal.Whole

open Cert.KernelIdeal Cert.KernelIdeal.Gen Cert.KernelIdeal.Row Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a; rfl

/-- The printed index maps, decided over the 128 grid points: the input's and the output's row block is the
    point's number, their column block and every weight block the first. -/
theorem index_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0 :=
  (by decide +kernel : ∀ t : Fin grid0.N, _)

/-- The step of a block, at a block entry `(p, q)`, is `stepAll` of whole arrays at an array entry `i` whenever
    row `p` of the block is the input array's row through `i`, `q` is `i`'s column, and the weight blocks are
    the weight arrays. -/
theorem blockStep_eq_stepAll (x0 : Vec Ideal S2048x128 .f32) (x1 : Vec Ideal S256x128 .f32) (x2 : Vec Ideal S256 .f32)
    (x3 : Vec Ideal S128x256 .f32) (x4 : Vec Ideal S128 .f32)
    (X : S262144x128.Idx → EReal) (W1 : S256x128.Idx → EReal) (b1 : S256.Idx → EReal) (W2 : S128x256.Idx → EReal)
    (b2 : S128.Idx → EReal) (p : Fin 2048) (q : Fin 128) (i : S262144x128.Idx)
    (hrow : ∀ k : Fin 128, x0 (ix2 p k) = X (ix2 (i 0) k)) (hcol : q = i 1)
    (h1 : x1 = W1) (h2 : x2 = b1) (h3 : x3 = W2) (h4 : x4 = b2) :
    blockStep x0 x1 x2 x3 x4 (ix2 p q) = Cert.Rk4.stepAll X W1 b1 W2 b2 i := by
  subst h1 h2 h3 h4
  rw [blockStep_apply]
  exact congr (congrArg (Cert.Rk4.stepRow x1 x2 x3 x4) (funext hrow)) hcol

/-- WHAT POINT `t` WRITES BACK is block `t` of `stepAll` of the argument arrays. -/
theorem flushed_eq (c : Dev nD) (t : Fin cfg0.N) :
    (dats m 0 c).flushed 5 t = ((cfg0.win 5).blk t).view.read (Elt Ideal)
      (Cert.Rk4.stepAll (V m c main_arg0) (V m c main_arg1) (V m c main_arg2) (V m c main_arg3) (V m c main_arg4)) := by
  rw [Cert.KernelIdeal.Value.flushed5]
  unfold out0_5
  rw [View.canon_unit_zero origin2]
  simp only [View.ld_unit_zero (S := S2048x128) origin2, View.ld_unit_zero (S := S256x128) origin2,
    View.ld_unit_zero (S := S128x256) origin2, View.ld_unit_zero (S := S256) origin1, View.ld_unit_zero (S := S128) origin1]
  rw [payload_eq]
  obtain ⟨e00, e01, e50, e51, e10, e11, e20, e30, e31, e40⟩ := index_facts t
  funext j
  obtain ⟨p, q, rfl⟩ : ∃ (p : Fin 2048) (q : Fin 128), j = ix2 p q := ⟨j 0, j 1, eq_ix2 j⟩
  show blockStep (iblk m c 0 t) (iblk m c 1 t) (iblk m c 2 t) (iblk m c 3 t) (iblk m c 4 t) (ix2 p q)
    = Cert.Rk4.stepAll (V m c main_arg0) (V m c main_arg1) (V m c main_arg2) (V m c main_arg3) (V m c main_arg4)
        (((cfg0.win 5).blk t).view.emb (ix2 p q))
  refine blockStep_eq_stepAll _ _ _ _ _ _ _ _ _ _ p q _ (fun k => ?_) ?_ ?_ ?_ ?_ ?_
  · show V m c main_arg0 (((cfg0.win 0).blk t).view.emb (ix2 p k)) = V m c main_arg0 (ix2 ((((cfg0.win 5).blk t).view.emb (ix2 p q)) 0) k)
    refine congrArg (V m c main_arg0) (funext fun a => Fin.ext ?_)
    match a with
    | ⟨0, _⟩ => show win0_0.index t (0 : Fin 2) * 2048 + 1 * p.val = win0_5.index t (0 : Fin 2) * 2048 + 1 * p.val; omega
    | ⟨1, _⟩ => show win0_0.index t (1 : Fin 2) * 128 + 1 * k.val = k.val; omega
  · refine Fin.ext ?_
    show q.val = win0_5.index t (1 : Fin 2) * 128 + 1 * q.val
    omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 1) * 256 + 1 * (y 0).val = (y 0).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 128 + 1 * (y 0).val = (y 0).val; omega
    | ⟨1, _⟩ => show win0_3.index t (1 : Fin 2) * 256 + 1 * (y 1).val = (y 1).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 1) * 128 + 1 * (y 0).val = (y 0).val; omega

/-- An entry of the output array is in point `t`'s block iff each coordinate is in the block's range. -/
theorem mem_block (t : Fin cfg0.N) (i : S262144x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v0).slice (win0_5.rect t)).set ↔ _
  rw [View.set_slice_whole, Rect.mem_set_unit]
  exact Iff.rfl

/-- Every entry of the output array lies in some point's block: row `r` in the block of point `r / 2048`. -/
theorem covered (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  let t : Fin cfg0.N := ⟨(i 0).val / 2048, by show (i 0).val / 2048 < 128; omega⟩
  obtain ⟨e00, e01, e50, e51, e10, e11, e20, e30, e31, e40⟩ := index_facts t
  have ht : t.val = (i 0).val / 2048 := rfl
  refine ⟨t, flush0_5 t, ?_⟩
  rw [mem_block]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- THE OUTPUT ARRAY after the run is `stepAll` of the argument arrays as launched. -/
theorem final (c : Dev nD) :
    (dats m 0 c).arrAt 5 cfg0.N = Cert.Rk4.stepAll (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_eq m c t) covered

/-- The kernel's run: it terminates with the output array at `stepAll` of the arguments and the arguments unchanged. -/
theorem run : θ_run defs (onTc (τ := τ) (main (F := Ideal))) ⟨m, fun _ => 0, ρ⟩ fun r => ∀ c : Dev nD,
      r.2.mem ((c : Thread nD τ).loc main_v0) = Cert.Rk4.stepAll (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefRow.lean ====
/-
  The reference's arithmetic on the whole batch, read at an entry `(r, j)`, is the row-by-row step of `RowSpec`
  applied to row `r`.

  The reference multiplies by each weight matrix TRANSPOSED, contracting the transposed matrix's first axis: at
  `(r, h)` that is the sum over `k` of `y (r, k) · W1 (h, k)`, the same sum the row specification has. Each bias is
  laid out as one row and repeated over the batch. The reference's first slope is the two-layer field of the
  input; its later slopes are the same field at shifted inputs, so one lemma about the field at an arbitrary
  batch serves all four. The only place where the reference's text differs from the specification's is the final
  scale, which it forms as the product of the words for one and for an eighth.
-/
import proofs.«119810_j39135742001490_1_alg».proof.Proof.Gen.ReferenceIdeal.Read
import proofs.«119810_j39135742001490_1_alg».proof.Proof.RowSpec
import Idealize.ShloMosaic.Lib.ValueIdx

noncomputable section

open scoped BigOperators

namespace Cert.ReferenceIdeal.Row

open Cert.ReferenceIdeal Cert.ReferenceIdeal.Gen Cert.ReferenceIdeal.Read Idealize.ShloMosaic Idealize.ShloMosaic.ValueIdx

/-! ## The printed index maps at an index given by its coordinates -/

theorem lidxA (r : Fin 262144) (h : Fin 256) (k : Fin 128) : lidx_main_v1 (ix2 r h) k = ix2 r k :=
  funext fun a => by match a with | ⟨0, _⟩ => rfl | ⟨1, _⟩ => rfl
theorem ridxA (r : Fin 262144) (h : Fin 256) (k : Fin 128) : idx_main_v0 (ridx_main_v1 (ix2 r h) k) = ix2 h k :=
  funext fun a => by match a with | ⟨0, _⟩ => rfl | ⟨1, _⟩ => rfl
theorem bidxA (r : Fin 262144) (h : Fin 256) : idx_main_v2 (idx_main_v3 (ix2 r h)) = ix1 h :=
  funext fun a => by match a with | ⟨0, _⟩ => rfl
theorem lidxB (r : Fin 262144) (j : Fin 128) (h : Fin 256) : lidx_main_v8 (ix2 r j) h = ix2 r h :=
  funext fun a => by match a with | ⟨0, _⟩ => rfl | ⟨1, _⟩ => rfl
theorem ridxB (r : Fin 262144) (j : Fin 128) (h : Fin 256) : idx_main_v7 (ridx_main_v8 (ix2 r j) h) = ix2 j h :=
  funext fun a => by match a with | ⟨0, _⟩ => rfl | ⟨1, _⟩ => rfl
theorem bidxB (r : Fin 262144) (j : Fin 128) : idx_main_v9 (idx_main_v10 (ix2 r j)) = ix1 j :=
  funext fun a => by match a with | ⟨0, _⟩ => rfl

/-! ## The vector field of the batch is the field of each row -/

/-- The rectified first layer of a batch `y`, at `(r, h)`, is hidden unit `h` of row `r`. -/
theorem hidden_apply (y : (⟨S262144x128, .f32⟩ : BufTy).Contents (Elt Ideal)) (W1 : (⟨S256x128, .f32⟩ : BufTy).Contents (Elt Ideal))
    (b1 : (⟨S256, .f32⟩ : BufTy).Contents (Elt Ideal)) (r : Fin 262144) (h : Fin 256) :
    val_main_v6 (F := Ideal) y W1 b1 (ix2 r h) = Cert.Rk4.hidden W1 b1 (fun k => y (ix2 r k)) h := by
  rw [val_main_v6_apply, val_main_v4_apply, val_main_v1_apply, val_main_v3_apply, val_main_v2_apply, val_main_v5_apply,
    val_main_cst_apply]
  simp only [val_main_v0_apply, lidxA, ridxA, bidxA]
  rfl

/-- The two-layer field of a batch `y`, at `(r, j)`, is the row specification's field of row `r` at `j`. -/
theorem field_apply (y : (⟨S262144x128, .f32⟩ : BufTy).Contents (Elt Ideal)) (W1 : (⟨S256x128, .f32⟩ : BufTy).Contents (Elt Ideal))
    (b1 : (⟨S256, .f32⟩ : BufTy).Contents (Elt Ideal)) (W2 : (⟨S128x256, .f32⟩ : BufTy).Contents (Elt Ideal))
    (b2 : (⟨S128, .f32⟩ : BufTy).Contents (Elt Ideal)) (r : Fin 262144) (j : Fin 128) :
    val_main_v11 (F := Ideal) y W1 b1 W2 b2 (ix2 r j) = Cert.Rk4.field W1 b1 W2 b2 (fun k => y (ix2 r k)) j := by
  rw [val_main_v11_apply, val_main_v8_apply, val_main_v10_apply, val_main_v9_apply]
  simp only [val_main_v7_apply, lidxB, ridxB, bidxB, hidden_apply]
  rfl

/-! ## The whole step on the batch -/

/-- One step on the batch, with the batch's field in place of the row's, and the final scale as the reference
    forms it. -/
def batchStep (x : (⟨S262144x128, .f32⟩ : BufTy).Contents (Elt Ideal)) (W1 : (⟨S256x128, .f32⟩ : BufTy).Contents (Elt Ideal))
    (b1 : (⟨S256, .f32⟩ : BufTy).Contents (Elt Ideal)) (W2 : (⟨S128x256, .f32⟩ : BufTy).Contents (Elt Ideal))
    (b2 : (⟨S128, .f32⟩ : BufTy).Contents (Elt Ideal)) : (⟨S262144x128, .f32⟩ : BufTy).Contents (Elt Ideal) :=
  let f := fun y : (⟨S262144x128, .f32⟩ : BufTy).Contents (Elt Ideal) => val_main_v11 (F := Ideal) y W1 b1 W2 b2
  let k1 := f x
  let k2 := f (fun i => x i + Cert.Rk4.oneW * k1 i * Cert.Rk4.thirdW)
  let k3 := f (fun i => x i + Cert.Rk4.oneW * (k2 i - k1 i * Cert.Rk4.thirdW))
  let k4 := f (fun i => x i + Cert.Rk4.oneW * (k1 i - k2 i + k3 i))
  fun i => x i + (Cert.Rk4.oneW * Cert.Rk4.eighthW) * (k1 i + Cert.Rk4.threeW * (k2 i + k3 i) + k4 i)

/-- The reference's result, as its run states it, is that step of the argument arrays. -/
theorem result_eq (m : (ℓ : Loc nD τ sig) → Buf (Elt Ideal) ℓ) (c : Dev nD) :
    Cert.ReferenceIdeal.Value.res_main_v72 m c
      = batchStep (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.Value.res_main_v72
  rfl

/-- The product of the words for one and for an eighth is the eighth. -/
theorem scale_eq : Cert.Rk4.oneW * Cert.Rk4.eighthW = Cert.Rk4.eighthW := by
  rw [Cert.Rk4.oneW_eq, one_mul]

/-- The step of the batch is the row specification's step of each row: the whole-array function `stepAll`. -/
theorem batchStep_eq (x : (⟨S262144x128, .f32⟩ : BufTy).Contents (Elt Ideal)) (W1 : (⟨S256x128, .f32⟩ : BufTy).Contents (Elt Ideal))
    (b1 : (⟨S256, .f32⟩ : BufTy).Contents (Elt Ideal)) (W2 : (⟨S128x256, .f32⟩ : BufTy).Contents (Elt Ideal))
    (b2 : (⟨S128, .f32⟩ : BufTy).Contents (Elt Ideal)) :
    batchStep x W1 b1 W2 b2 = Cert.Rk4.stepAll x W1 b1 W2 b2 := by
  funext i
  obtain ⟨r, j, rfl⟩ : ∃ (r : Fin 262144) (j : Fin 128), i = ix2 r j := ⟨i 0, i 1, eq_ix2 i⟩
  simp only [batchStep, Cert.Rk4.stepAll, Cert.Rk4.stepRow, field_apply, scale_eq]

end Cert.ReferenceIdeal.Row

end
-- ==== Proof.lean ====
/-
  One explicit Runge–Kutta step (the 3/8 rule, step size one) of the vector field
      f(y) = relu (y · W1ᵀ + b1) · W2ᵀ + b2
  on a batch of 262144 rows of 128 numbers: the kernel, which walks the batch in 128 blocks of 2048 rows with the
  weights resident, against the reference, which applies the same formulas to the whole batch at once.

  Over the extended reals the two compute the same function. A change of float format is the identity there, so
  the kernel's narrowing of the operands of each product disappears; the kernel's product that contracts the last
  axis of both operands and the reference's product with the transposed matrix are the same sum over `k`; and the
  four slopes and their combination are pointwise. So both results are `Cert.Rk4.stepAll` of the argument arrays
  (Proof/RowSpec.lean): entry `(r, j)` is the step of row `r` at `j`. The kernel's side is Proof/KernelRow.lean (a
  block entry is the step of the block's row) and Proof/KernelWhole.lean (the 128 blocks cover the array); the
  reference's is Proof/RefRow.lean. The one difference in the texts is the final scale, which the reference forms
  as the word for one times the word for an eighth: the word for one denotes one. No law that needs finite
  operands is used, so the precondition is never opened.

  The three frames are the generated ones (the reference's is its generated run with the result dropped), and the
  idealization rewrote no operation, so that conjunct is trivial.
-/
import proofs.«119810_j39135742001490_1_alg».proof.Defs
import proofs.«119810_j39135742001490_1_alg».proof.Proof.Gen.Kernel
import proofs.«119810_j39135742001490_1_alg».proof.Proof.Gen.Kernel.Skeleton
import proofs.«119810_j39135742001490_1_alg».proof.Proof.Gen.Kernel.Launch
import proofs.«119810_j39135742001490_1_alg».proof.Proof.Gen.Kernel.Points
import proofs.«119810_j39135742001490_1_alg».proof.Proof.Gen.Kernel.Frame
import proofs.«119810_j39135742001490_1_alg».proof.Proof.Gen.KernelIdeal
import proofs.«119810_j39135742001490_1_alg».proof.Proof.Gen.KernelIdeal.Skeleton
import proofs.«119810_j39135742001490_1_alg».proof.Proof.Gen.KernelIdeal.Launch
import proofs.«119810_j39135742001490_1_alg».proof.Proof.Gen.KernelIdeal.Points
import proofs.«119810_j39135742001490_1_alg».proof.Proof.Gen.KernelIdeal.Frame
import proofs.«119810_j39135742001490_1_alg».proof.Proof.Gen.ReferenceIdeal
import proofs.«119810_j39135742001490_1_alg».proof.Proof.Gen.Pre_finite_inputs
import proofs.«119810_j39135742001490_1_alg».proof.Proof.Gen.KernelIdeal.Value
import proofs.«119810_j39135742001490_1_alg».proof.Proof.Gen.ReferenceIdeal.Run
import proofs.«119810_j39135742001490_1_alg».proof.Proof.Gen.ReferenceIdeal.Read
import proofs.«119810_j39135742001490_1_alg».proof.Proof.KernelWhole
import proofs.«119810_j39135742001490_1_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- And the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both programs end with the batch at `stepAll` of the
    arguments: the kernel's output array by the cover of its blocks, the reference's result because its term is
    the batch step, which is the row step of every row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Row.result_eq, Cert.ReferenceIdeal.Row.batchStep_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
